-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x1600000 32) (main_arg2 : FVec F S1x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S102400x1 : Shape := ⟨2, ![102400, 1]⟩
abbrev S102400x64 : Shape := ⟨2, ![102400, 64]⟩
abbrev S4096x1 : Shape := ⟨2, ![4096, 1]⟩
abbrev S4096x64 : Shape := ⟨2, ![4096, 64]⟩
abbrev S100000x64 : Shape := ⟨2, ![100000, 64]⟩
abbrev S1700000x64 : Shape := ⟨2, ![1700000, 64]⟩
abbrev S1x1 : Shape := ⟨2, ![1, 1]⟩

abbrev nBuf : Space → Nat
  | .hbm => 99
  | .vmem => 18
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S_, .f32⟩
  | .hbm, ⟨50, _⟩ => ⟨S102400x1, .f32⟩
  | .hbm, ⟨51, _⟩ => ⟨S102400x64, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S_, .i32⟩
  | .hbm, ⟨70, _⟩ => ⟨S_, .f32⟩
  | .hbm, ⟨71, _⟩ => ⟨S102400x64, .f32⟩
  | .hbm, ⟨72, _⟩ => ⟨S1x64, .f32⟩
  | .hbm, ⟨73, _⟩ => ⟨S102400x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S_, .i32⟩
  | .hbm, ⟨92, _⟩ => ⟨S_, .f32⟩
  | .hbm, ⟨93, _⟩ => ⟨S102400x64, .f32⟩
  | .hbm, ⟨94, _⟩ => ⟨S1x64, .f32⟩
  | .hbm, ⟨95, _⟩ => ⟨S1x1, .f32⟩
  | .hbm, ⟨96, _⟩ => ⟨S102400x1, .f32⟩
  | .hbm, ⟨97, _⟩ => ⟨S100000x1, .f32⟩
  | .hbm, ⟨98, _⟩ => ⟨S100000, .f32⟩
  | .local _ .vmem, ⟨0, _⟩ => ⟨S4096x1, .f32⟩
  | .local _ .vmem, ⟨1, _⟩ => ⟨S4096x1, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S1x64, .f32⟩
  | .local _ .vmem, ⟨8, _⟩ => ⟨S64x64, .f32⟩
  | .local _ .vmem, ⟨9, _⟩ => ⟨S4096x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S4096x1, .f32⟩
  | .local _ .vmem, ⟨17, _⟩ => ⟨S4096x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_call2_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_11 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_call3_v0 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x1_S102400x1_024000_000 : S100000x1.Pads (![0, 0] : Fin 2 → Nat) ![2400, 0] ![0, 0] S102400x1
  h_S_ : 0 < S_.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x64_S1x64_0_0 : ∀ a, (![0, 0] : Fin 2 → Nat) a + S1x64.size a ≤ S1x64.size a
  h_S1x64 : 0 < S1x64.numel
  broadcasts_S4096x1_S4096x64 : S4096x1.Broadcasts S4096x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  slices_S102400x64_S100000x64_0_0 : S102400x64.Slices ![0, 0] S100000x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  pads_S100000x64_S102400x64_024000_000 : S100000x64.Pads (![0, 0] : Fin 2 → Nat) ![2400, 0] ![0, 0] S102400x64
  shapeCasts_S64_S1x64 : S64.ShapeCasts S1x64
  shapeCasts_S4096x64_S4096x64 : S4096x64.ShapeCasts S4096x64
  shapeCasts_S1x64_S1x64 : S1x64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  slices_S102400x1_S100000x1_0_0 : S102400x1.Slices ![0, 0] S100000x1
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4096x64_S64x64_S4096x64_1_0_0_1_n_n_wf : DotDims.WF S4096x64 S64x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S102400x1.size a
  hwx0_0 : ∀ i : grid0.Coords, EltTy.bits .f32 = 32 ∨ (Rect.block (s := S102400x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S102400x64.size a
  hwx0_2 : ∀ i : grid0.Coords, EltTy.bits .f32 = 32 ∨ (Rect.block (s := S102400x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S102400x64.size a
  hwx1_0 : ∀ i : grid1.Coords, EltTy.bits .f32 = 32 ∨ (Rect.block (s := S102400x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S102400x64.size a
  hwx1_3 : ∀ i : grid1.Coords, EltTy.bits .f32 = 32 ∨ (Rect.block (s := S102400x64) S4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S102400x64.size a
  hwx2_0 : ∀ i : grid2.Coords, EltTy.bits .f32 = 32 ∨ (Rect.block (s := S102400x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x1.size a ≤ S102400x1.size a
  hwx2_4 : ∀ i : grid2.Coords, EltTy.bits .f32 = 32 ∨ (Rect.block (s := S102400x1) S4096x1.size (cc2_transform_4 i) (hinb2_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v30) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S4096x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1x64 : Shape := ⟨2, ![1, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x1, .f32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S100000x1, .f32⟩
  | .hbm, ⟨95, _⟩ => ⟨S1x1, .f32⟩
  | .hbm, ⟨96, _⟩ => ⟨S100000x1, .f32⟩
  | .hbm, ⟨97, _⟩ => ⟨S100000x1, .f32⟩
  | .hbm, ⟨98, _⟩ => ⟨S100000, .f32⟩
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x1_S1x64_S100000x64_1_0_0_1_n_n_wf : DotDims.WF S100000x1 S1x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Dense.lean ====
/-
  The three dense maps of a two-layer graph network, as functions of whole arrays over the extended reals.

  The network's rows are the nodes. Its first dense map sends a column x (one number per row) and a row w of 64
  weights to the outer product x (r) * w (q). Its second takes an array a of 64 features per row, a bias row b and a
  64 x 64 weight matrix w, clips a (r, k) + b (k) at zero and contracts with w: the sum over k of
  max (a (r, k) + b (k)) 0 * w (k, q). Its third does the same with a 64 x 1 weight matrix and adds one more bias
  number. Each entry of each result depends on ONE row of the first operand; this is what lets a tile of rows be computed
  from a tile of rows, and what makes rows appended below the array's last row irrelevant to the rows above them.

  The maps are stated for any number of rows R, so that a tile (R = 4096), the padded array (R = 102400) and the array
  itself (R = 100000) are instances.
-/
import Idealize.ShloMosaic.PureOps.Ideal
import Idealize.ShloMosaic.Lib.ValueIdx
import Mathlib.Algebra.BigOperators.Group.Finset.Basic
import Mathlib.Data.Fintype.BigOperators

noncomputable section

namespace Cert.Dense

open Idealize.ShloMosaic Idealize.ShloMosaic.ValueIdx
open scoped BigOperators

variable {R : ℕ}

/-- The row of an index of an [R, C] array. -/
abbrev rowOf {R C : ℕ} (i : (⟨2, ![R, C]⟩ : Shape).Idx) : Fin R := ⟨(i 0).val, (i 0).isLt⟩
/-- The column of an index of an [R, C] array. -/
abbrev colOf {R C : ℕ} (i : (⟨2, ![R, C]⟩ : Shape).Idx) : Fin C := ⟨(i 1).val, (i 1).isLt⟩

/-- An index of an [R, C] array is its row and its column. -/
theorem eq_ix2_row_col {R C : ℕ} (i : (⟨2, ![R, C]⟩ : Shape).Idx) : i = ix2 (rowOf i) (colOf i) :=
  funext fun a => Fin.ext (by match a with | ⟨0, _⟩ => rfl | ⟨1, _⟩ => rfl)

/-- The outer product of a column of R numbers and a row of 64 weights. -/
def outer (x : FVec Ideal ⟨2, ![R, 1]⟩ .f32) (w : FVec Ideal ⟨2, ![1, 64]⟩ .f32) : FVec Ideal ⟨2, ![R, 64]⟩ .f32 :=
  fun i => x (ix2 (rowOf i) (0 : Fin 1)) * w (ix2 (0 : Fin 1) (colOf i))

theorem outer_apply (x : FVec Ideal ⟨2, ![R, 1]⟩ .f32) (w : FVec Ideal ⟨2, ![1, 64]⟩ .f32) (r : Fin R) (q : Fin 64) :
    outer x w (ix2 r q) = x (ix2 r (0 : Fin 1)) * w (ix2 (0 : Fin 1) q) := rfl

/-- Bias, clip at zero, contract with a 64 x C weight matrix. -/
def reluDense {C : ℕ} (a : FVec Ideal ⟨2, ![R, 64]⟩ .f32) (b : FVec Ideal ⟨2, ![1, 64]⟩ .f32)
    (w : FVec Ideal ⟨2, ![64, C]⟩ .f32) : FVec Ideal ⟨2, ![R, C]⟩ .f32 :=
  fun i => ∑ k : Fin 64, max (a (ix2 (rowOf i) k) + b (ix2 (0 : Fin 1) k)) 0 * w (ix2 k (colOf i))

theorem reluDense_apply {C : ℕ} (a : FVec Ideal ⟨2, ![R, 64]⟩ .f32) (b : FVec Ideal ⟨2, ![1, 64]⟩ .f32)
    (w : FVec Ideal ⟨2, ![64, C]⟩ .f32) (r : Fin R) (q : Fin C) :
    reluDense a b w (ix2 r q) = ∑ k : Fin 64, max (a (ix2 r k) + b (ix2 (0 : Fin 1) k)) 0 * w (ix2 k q) := rfl

/-- The same followed by one more bias number, for a 64 x 1 weight matrix. -/
def reluDenseBias (a : FVec Ideal ⟨2, ![R, 64]⟩ .f32) (b : FVec Ideal ⟨2, ![1, 64]⟩ .f32)
    (w : FVec Ideal ⟨2, ![64, 1]⟩ .f32) (bo : FVec Ideal ⟨2, ![1, 1]⟩ .f32) : FVec Ideal ⟨2, ![R, 1]⟩ .f32 :=
  fun i => reluDense a b w i + bo (ix2 (0 : Fin 1) (0 : Fin 1))

theorem reluDenseBias_apply (a : FVec Ideal ⟨2, ![R, 64]⟩ .f32) (b : FVec Ideal ⟨2, ![1, 64]⟩ .f32)
    (w : FVec Ideal ⟨2, ![64, 1]⟩ .f32) (bo : FVec Ideal ⟨2, ![1, 1]⟩ .f32) (r : Fin R) (q : Fin 1) :
    reluDenseBias a b w bo (ix2 r q)
      = (∑ k : Fin 64, max (a (ix2 r k) + b (ix2 (0 : Fin 1) k)) 0 * w (ix2 k q)) + bo (ix2 (0 : Fin 1) (0 : Fin 1)) := rfl

end Cert.Dense

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Tile0.lean ====
import proofs.«149976_j14748917694868_1_alg».proof.Proof.Gen.KernelIdeal.Frame
import proofs.«149976_j14748917694868_1_alg».proof.Proof.Dense
import proofs.«149976_j14748917694868_1_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Both zero offsets, however spelt, are the constant zero. -/
private theorem zero_offsets : (![0, 0] : Fin 2 → Nat) = fun _ => 0 := funext fun a => by fin_cases a <;> rfl

/-- A column stretched along its unit axis reads, at (p, q), the column at p. -/
private theorem stretch_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's arithmetic on a tile of 4096 rows is the outer product of the tile's column and the weight row. -/
private theorem tile0_outer (x0 : Vec Ideal S4096x1 .f32) (x1 : Vec Ideal S1x64 .f32) :
    k0_pay1 x0 x1 = Cert.Dense.outer (R := 4096) x0 x1 := by
  funext j
  obtain ⟨p, q, rfl⟩ : ∃ (p : Fin 4096) (q : Fin 64), j = ix2 p q := ⟨j 0, j 1, eq_ix2 j⟩
  unfold k0_pay1
  show (broadcastTo S4096x64 (shapeCast S4096x1 x0 shapeCasts_S4096x1_S4096x1) broadcasts_S4096x1_S4096x64 (ix2 p q) : Ideal .f32)
      * (broadcastTo S4096x64 x1 broadcasts_S1x64_S4096x64 (ix2 p q) : Ideal .f32) = _
  rw [shapeCast_self, stretch_column_apply, broadcastTo_1b_ab_apply, Cert.Dense.outer_apply]

/-- An entry of an outer product reads one row of the column: two outer products agree at two indices as soon as
    the columns agree at the indices' rows and the weight rows at their columns. -/
private theorem outer_congr {R R' : ℕ} (x : FVec Ideal ⟨2, ![R, 1]⟩ .f32) (w : FVec Ideal ⟨2, ![1, 64]⟩ .f32)
    (x' : FVec Ideal ⟨2, ![R', 1]⟩ .f32) (w' : FVec Ideal ⟨2, ![1, 64]⟩ .f32)
    (j : (⟨2, ![R, 64]⟩ : Shape).Idx) (i : (⟨2, ![R', 64]⟩ : Shape).Idx)
    (hx : x (ix2 (Cert.Dense.rowOf j) (0 : Fin 1)) = x' (ix2 (Cert.Dense.rowOf i) (0 : Fin 1)))
    (hw : w (ix2 (0 : Fin 1) (Cert.Dense.colOf j)) = w' (ix2 (0 : Fin 1) (Cert.Dense.colOf i))) :
    Cert.Dense.outer x w j = Cert.Dense.outer x' w' i := by
  show x _ * w _ = x' _ * w' _
  rw [hx, hw]

/-- The printed index maps, decided once over the grid: the column's and the output's tiles move down with the
    point, the weight row stays. -/
private theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is tile t of the outer product of the whole column and the weight row. -/
private theorem flushed0_eq (c : Dev nD) (t : Fin cfg0.N) :
    (dat0 (F := Ideal) V c).flushed 2 t
      = ((cfg0.win 2).blk t).view.read (Elt Ideal) (Cert.Dense.outer (R := 102400) (V c main_v30) (V c main_arg2)) := by
  show (cfg0.win 2).cut (grid0.coords t) ((dat0 V c).after 2 t) = _
  rw [after0_2]
  unfold out0_2
  rw [View.canon_unit_zero zero_offsets]
  simp only [View.ld_unit_zero (S := S4096x1) zero_offsets, View.ld_unit_zero (S := S1x64) zero_offsets]
  rw [tile0_outer]
  obtain ⟨e0, e1, e2, e3, e4, e5⟩ := block_indices0 t
  funext j
  show Cert.Dense.outer (R := 4096) (iblk0 V c 0 t) (iblk0 V c 1 t) j
    = Cert.Dense.outer (R := 102400) (V c main_v30) (V c main_arg2) (((cfg0.win 2).blk t).view.emb j)
  refine outer_congr _ _ _ _ j _ ?_ ?_
  · show V c main_v30 (((cfg0.win 0).blk t).view.emb (ix2 (Cert.Dense.rowOf j) (0 : Fin 1)))
      = V c main_v30 (ix2 (Cert.Dense.rowOf (((cfg0.win 2).blk t).view.emb j)) (0 : Fin 1))
    refine congrArg _ (funext fun a => Fin.ext ?_)
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 1 + 1 * 0 = 0; omega
  · show V c main_arg2 (((cfg0.win 1).blk t).view.emb (ix2 (0 : Fin 1) (Cert.Dense.colOf j)))
      = V c main_arg2 (ix2 (0 : Fin 1) (Cert.Dense.colOf (((cfg0.win 2).blk t).view.emb j)))
    refine congrArg _ (funext fun a => Fin.ext ?_)
    match a with
    | ⟨0, _⟩ => show win0_1.index t (0 : Fin 2) * 1 + 1 * 0 = 0; omega
    | ⟨1, _⟩ => show win0_1.index t (1 : Fin 2) * 64 + 1 * (j 1).val = win0_2.index t (1 : Fin 2) * 64 + 1 * (j 1).val; omega

/-- An index of the array is in point t's tile iff each coordinate is in the tile's range on its axis. -/
private theorem mem_tile0 (t : Fin cfg0.N) (i : S102400x64.Idx) :
    i ∈ ((cfg0.win 2).blk t).view.set
      ↔ ∀ a : Fin 2, win0_2.index t a * S4096x64.size a ≤ (i a).val
          ∧ (i a).val < win0_2.index t a * S4096x64.size a + S4096x64.size a := by
  show i ∈ ((View.whole main_v31).slice (win0_2.rect t)).set ↔ _
  rw [View.set_slice_whole, Rect.mem_set_unit]
  exact Iff.rfl

/-- Every index of the array is in some point's tile: 25 tiles of 4096 rows are all 102400 rows, and row r is in
    tile r / 4096. -/
private theorem tiles_cover0 (i : S102400x64.Idx) :
    ∃ t : Fin cfg0.N, (cfg0.win 2).flush t = true ∧ i ∈ ((cfg0.win 2).blk t).view.set := by
  have hi0 : (i 0).val < 102400 := (i 0).isLt
  have hi1 : (i 1).val < 64 := (i 1).isLt
  have hN : cfg0.N = 25 := N_0
  obtain ⟨t, ht⟩ : ∃ t : Fin cfg0.N, t.val = (i 0).val / 4096 := ⟨⟨(i 0).val / 4096, by rw [hN]; omega⟩, rfl⟩
  obtain ⟨-, -, -, -, e4, e5⟩ := block_indices0 t
  refine ⟨t, flush0_2 t, ?_⟩
  rw [mem_tile0]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 64 ≤ (i 1).val ∧ (i 1).val < win0_2.index t (1 : Fin 2) * 64 + 64
    omega

/-- After the first call's twenty-five tiles the output array is the outer product of the padded column and the weight
    row, whatever the buffers held when the call was entered. -/
theorem final0 (c : Dev nD) :
    (dat0 (F := Ideal) V c).arrAt 2 cfg0.N = Cert.Dense.outer (R := 102400) (V c main_v30) (V c main_arg2) :=
  (dat0 V c).arrAt_eq_of_cover 2 (Cert.Dense.outer (R := 102400) (V c main_v30) (V c main_arg2))
    (fun t _ => flushed0_eq V c t) tiles_cover0

end Cert.KernelIdeal.Tiles

end
-- ==== Proof.Tile1.lean ====
import proofs.«149976_j14748917694868_1_alg».proof.Proof.Gen.KernelIdeal.Frame
import proofs.«149976_j14748917694868_1_alg».proof.Proof.Dense
import proofs.«149976_j14748917694868_1_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The contraction record of the tile's product is the plain one: [4096, 64] x [64, 64], axis 1 against axis 0. -/
private theorem dot_tile_eq : dot_S4096x64_S64x64_S4096x64_1_0_0_1_n_n = DotDims.plain 4096 64 64 := rfl

/-- The body's arithmetic on a tile is the dense map of the tile: the rounding of the clipped rows and of the weights to a
    narrower format is the identity over the extended reals, the zero word is zero, and the product into the zero
    accumulator is the contraction. -/
private theorem pay_tile (x0 : Vec Ideal S4096x64 .f32) (x1 : Vec Ideal S1x64 .f32) (x2 : Vec Ideal S64x64 .f32) :
    k1_pay1 x0 x1 x2 = Cert.Dense.reluDense (R := 4096) (C := 64) x0 x1 x2 := by
  funext i
  rw [Cert.Dense.eq_ix2_row_col i]
  unfold k1_pay1
  rw [dot_tile_eq]
  refine (Cert.PlainMatmul.apply none _ _ _ _).trans ?_
  rw [Cert.Dense.reluDense_apply]
  refine Finset.sum_congr rfl fun k _ => ?_
  rw [shapeCast_self, shapeCast_self]
  show max (x0 (ix2 (Cert.Dense.rowOf i) k) + broadcastTo S4096x64 x1 broadcasts_S1x64_S4096x64 (ix2 (Cert.Dense.rowOf i) k))
      (Ideal.ofBits .f32 0x00000000#32) * x2 (ix2 k (Cert.Dense.colOf i)) = _
  rw [broadcastTo_1b_ab_apply, Ideal.ofBits_zero_f32]

/-- An entry of the dense map reads one row of its first operand: when a tile's first operand is rows o, o + 1, … of an
    array's and its bias row and weights are the array's, the tile's entry (r, q) is the array's entry (o + r, q). -/
private theorem reluDense_rows {T R : ℕ} (o : ℕ) (A : FVec Ideal ⟨2, ![R, 64]⟩ .f32) (At : FVec Ideal ⟨2, ![T, 64]⟩ .f32)
    (b bt : FVec Ideal ⟨2, ![1, 64]⟩ .f32) (w wt : FVec Ideal ⟨2, ![64, 64]⟩ .f32)
    (hA : ∀ (r : Fin T) (r' : Fin R) (k : Fin 64), r'.val = o + r.val → At (ix2 r k) = A (ix2 r' k))
    (hb : bt = b) (hw : wt = w)
    (j : (⟨2, ![T, 64]⟩ : Shape).Idx) (i : (⟨2, ![R, 64]⟩ : Shape).Idx)
    (h0 : (i 0).val = o + (j 0).val) (h1 : (i 1).val = (j 1).val) :
    Cert.Dense.reluDense At bt wt j = Cert.Dense.reluDense A b w i := by
  subst hb hw
  have hq : Cert.Dense.colOf j = Cert.Dense.colOf i := Fin.ext h1.symm
  rw [Cert.Dense.eq_ix2_row_col j, Cert.Dense.eq_ix2_row_col i, Cert.Dense.reluDense_apply, Cert.Dense.reluDense_apply]
  refine Finset.sum_congr rfl fun k _ => ?_
  rw [hA (Cert.Dense.rowOf j) (Cert.Dense.rowOf i) k h0, hq]

/-- The block index of each window at a point of the grid: the row-tiled input and the output are at tile t of the rows
    and at column block 0; the bias row and the weights stay at block (0, 0). -/
private theorem idx_tiles : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

private theorem zeros_eq : (![0, 0] : Fin 2 → Nat) = fun _ => 0 := funext fun a => by fin_cases a <;> rfl

/-- What point t writes back is tile t of the dense map of the whole input arrays as the call finds them. -/
private theorem flushed_tile (c : Dev nD) (t : Fin cfg1.N) :
    (dat1 (F := Ideal) V c).flushed 3 t
      = ((cfg1.win 3).blk t).view.read (Elt Ideal)
          (Cert.Dense.reluDense (R := 102400) (C := 64) (V c main_v46) (V c main_v47) (V c main_arg4)) := by
  show (cfg1.win 3).cut (grid1.coords t) ((dat1 V c).after 3 t) = _
  rw [after1_3]
  unfold out1_3
  rw [View.canon_unit_zero zeros_eq]
  simp only [View.ld_unit_zero (S := S4096x64) zeros_eq, View.ld_unit_zero (S := S1x64) zeros_eq,
    View.ld_unit_zero (S := S64x64) zeros_eq]
  rw [pay_tile]
  obtain ⟨e0, e1, e2, e3, e4, e5, e6, e7⟩ := idx_tiles t
  funext j
  show Cert.Dense.reluDense (R := 4096) (C := 64) (iblk1 V c 0 t) (iblk1 V c 1 t) (iblk1 V c 2 t)
        ((cfg1.win 3).xinj (grid1.coords t) j)
      = Cert.Dense.reluDense (R := 102400) (C := 64) (V c main_v46) (V c main_v47) (V c main_arg4)
        (((cfg1.win 3).blk t).view.emb j)
  refine reluDense_rows (t.val * 4096) _ _ _ _ _ _ ?_ ?_ ?_ _ _ ?_ ?_
  · -- row r of the tile is row 4096 t + r of the array
    intro r r' k hr
    show V c main_v46 (((cfg1.win 0).blk t).view.emb (ix2 r k)) = V c main_v46 (ix2 r' k)
    refine congrArg _ (funext fun a => Fin.ext ?_)
    match a with
    | ⟨0, _⟩ => show win1_0.index t (0 : Fin 2) * 4096 + 1 * r.val = r'.val; omega
    | ⟨1, _⟩ => show win1_0.index t (1 : Fin 2) * 64 + 1 * k.val = k.val; omega
  · -- the bias row's one block is the bias row
    funext y
    show V c main_v47 (((cfg1.win 1).blk t).view.emb y) = V c main_v47 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 64 + 1 * (y 1).val = (y 1).val; omega
  · -- the weights' one block is the weight matrix
    funext y
    show V c main_arg4 (((cfg1.win 2).blk t).view.emb y) = V c main_arg4 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  · show win1_3.index t (0 : Fin 2) * 4096 + 1 * (j 0).val = t.val * 4096 + (j 0).val; omega
  · show win1_3.index t (1 : Fin 2) * 64 + 1 * (j 1).val = (j 1).val; omega

/-- An index of the array is in point t's block iff each coordinate is in the block's range on its axis. -/
private theorem mem_tile (t : Fin cfg1.N) (i : S102400x64.Idx) :
    i ∈ ((cfg1.win 3).blk t).view.set
      ↔ ∀ a : Fin 2, win1_3.index t a * S4096x64.size a ≤ (i a).val
          ∧ (i a).val < win1_3.index t a * S4096x64.size a + S4096x64.size a := by
  show i ∈ ((View.whole main_v48).slice (win1_3.rect t)).set ↔ _
  rw [View.set_slice_whole, Rect.mem_set_unit]
  exact Iff.rfl

/-- Every row is in some tile: 25 tiles of 4096 rows are the 102400 rows, and row r is in tile r / 4096. -/
private theorem cover_tiles (i : S102400x64.Idx) :
    ∃ t : Fin cfg1.N, (cfg1.win 3).flush t = true ∧ i ∈ ((cfg1.win 3).blk t).view.set := by
  have hN : cfg1.N = 25 := N_1
  have hi0 : (i 0).val < 102400 := (i 0).isLt
  have hi1 : (i 1).val < 64 := (i 1).isLt
  obtain ⟨t, ht⟩ : ∃ t : Fin cfg1.N, t.val = (i 0).val / 4096 := ⟨⟨(i 0).val / 4096, by rw [hN]; omega⟩, rfl⟩
  obtain ⟨-, -, -, -, -, -, e6, e7⟩ := idx_tiles t
  refine ⟨t, flush1_3 t, ?_⟩
  rw [mem_tile]
  intro a
  match a with
  | ⟨0, _⟩ =>
    show win1_3.index t (0 : Fin 2) * 4096 ≤ (i 0).val ∧ (i 0).val < win1_3.index t (0 : Fin 2) * 4096 + 4096
    omega
  | ⟨1, _⟩ =>
    show win1_3.index t (1 : Fin 2) * 64 ≤ (i 1).val ∧ (i 1).val < win1_3.index t (1 : Fin 2) * 64 + 64
    omega

/-- After the second call's twenty-five tiles the output array is the biased, clipped and contracted rows of the padded
    input array, whatever the buffers held when the call was entered. -/
theorem final1 (c : Dev nD) :
    (dat1 (F := Ideal) V c).arrAt 3 cfg1.N
      = Cert.Dense.reluDense (R := 102400) (C := 64) (V c main_v46) (V c main_v47) (V c main_arg4) :=
  (dat1 V c).arrAt_eq_of_cover 3
    (Cert.Dense.reluDense (R := 102400) (C := 64) (V c main_v46) (V c main_v47) (V c main_arg4))
    (fun t _ => flushed_tile V c t) cover_tiles

end Cert.KernelIdeal.Tiles

end
-- ==== Proof.Tile2.lean ====
import proofs.«149976_j14748917694868_1_alg».proof.Proof.Gen.KernelIdeal.Frame
import proofs.«149976_j14748917694868_1_alg».proof.Proof.Dense
import proofs.«149976_j14748917694868_1_alg».proof.Proof.LibPlainMatmul
import Idealize.ShloMosaic.Lib.Pipeline.Value
import Idealize.ShloMosaic.Lib.ValueLayout
import Idealize.ShloMosaic.PureOps.Ideal.Laws

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The dimension numbers of the third call's product are the plain ones: contract the left operand's columns with the
    right operand's rows. -/
private theorem dot2_eq_plain : dot_S4096x64_S64x1_S4096x1_1_0_0_1_n_n = DotDims.plain 4096 64 1 := rfl

/-- The body's arithmetic on a tile of 4096 rows is the biased, clipped and contracted rows of the tile plus the last bias:
    the casts between equal shapes and the change of float format are identities, the bias row is read at the entry's
    column whatever its row, the zero word is the number zero, and the product into the zero accumulator is the sum over
    the 64 features. -/
private theorem body2_eq_reluDenseBias (x0 : Vec Ideal S4096x64 .f32) (x1 : Vec Ideal S1x64 .f32) (x2 : Vec Ideal S64x1 .f32) (x3 : Vec Ideal S1x1 .f32) :
    k2_pay1 x0 x1 x2 x3 = Cert.Dense.reluDenseBias (R := 4096) x0 x1 x2 x3 := by
  funext i
  obtain ⟨r, q, rfl⟩ : ∃ (r : Fin 4096) (q : Fin 1), i = ix2 r q := ⟨_, _, Cert.Dense.eq_ix2_row_col i⟩
  have hq : q = 0 := Subsingleton.elim _ _
  subst hq
  rw [Cert.Dense.reluDenseBias_apply]
  unfold k2_pay1
  rw [shapeCast_self, shapeCast_self, shapeCast_self, dot2_eq_plain]
  show FloatOps.matmul (F := Ideal) (DotDims.plain 4096 64 1) none _ _ (constant ⟨2, ![4096, 1]⟩ .f32 0x00000000#32) (ix2 r 0)
      + broadcastTo S4096x1 x3 broadcasts_S1x1_S4096x1 (ix2 r 0) = _
  rw [Cert.PlainMatmul.apply, broadcastTo_1b_ab_apply]
  congr 1
  refine Finset.sum_congr rfl fun k _ => ?_
  show max (x0 (ix2 r k) + broadcastTo S4096x64 x1 broadcasts_S1x64_S4096x64 (ix2 r k)) (Ideal.ofBits .f32 0x00000000#32) * x2 (ix2 k 0) = _
  rw [broadcastTo_1b_ab_apply, Ideal.ofBits_zero_f32]

/-- An entry of the map reads one row of its first operand: if a tile's row agrees with a row of the array, and the bias
    row, the weights and the last bias are the array's, the tile's entry is the array's entry in that row. -/
private theorem reluDenseBias_one_row {T R : ℕ}
    (at' : FVec Ideal ⟨2, ![T, 64]⟩ .f32) (bt : FVec Ideal ⟨2, ![1, 64]⟩ .f32) (wt : FVec Ideal ⟨2, ![64, 1]⟩ .f32)
    (bot : FVec Ideal ⟨2, ![1, 1]⟩ .f32)
    (a : FVec Ideal ⟨2, ![R, 64]⟩ .f32) (b : FVec Ideal ⟨2, ![1, 64]⟩ .f32) (w : FVec Ideal ⟨2, ![64, 1]⟩ .f32)
    (bo : FVec Ideal ⟨2, ![1, 1]⟩ .f32)
    (j : (⟨2, ![T, 1]⟩ : Shape).Idx) (i : (⟨2, ![R, 1]⟩ : Shape).Idx)
    (ha : ∀ k : Fin 64, at' (ix2 (Cert.Dense.rowOf j) k) = a (ix2 (Cert.Dense.rowOf i) k))
    (hb : ∀ k : Fin 64, bt (ix2 (0 : Fin 1) k) = b (ix2 (0 : Fin 1) k))
    (hw : ∀ k : Fin 64, wt (ix2 k (Cert.Dense.colOf j)) = w (ix2 k (Cert.Dense.colOf i)))
    (hbo : bot (ix2 (0 : Fin 1) (0 : Fin 1)) = bo (ix2 (0 : Fin 1) (0 : Fin 1))) :
    Cert.Dense.reluDenseBias at' bt wt bot j = Cert.Dense.reluDenseBias a b w bo i := by
  show (∑ k : Fin 64, max (at' (ix2 (Cert.Dense.rowOf j) k) + bt (ix2 (0 : Fin 1) k)) 0 * wt (ix2 k (Cert.Dense.colOf j)))
        + bot (ix2 (0 : Fin 1) (0 : Fin 1))
      = (∑ k : Fin 64, max (a (ix2 (Cert.Dense.rowOf i) k) + b (ix2 (0 : Fin 1) k)) 0 * w (ix2 k (Cert.Dense.colOf i)))
        + bo (ix2 (0 : Fin 1) (0 : Fin 1))
  rw [hbo]
  congr 1
  exact Finset.sum_congr rfl fun k _ => by rw [ha k, hb k, hw k]

/-- The offsets of a whole tile, both zero, spelt as the constant function. -/
private theorem zero_offsets2 : (![0, 0] : Fin 2 → Nat) = fun _ => 0 := funext fun a => by fin_cases a <;> rfl

/-- The block indices over the grid: at tile t the row-tiled windows (the input array and the output column) are at block t of
    the rows and block 0 of the columns; the bias row, the weights and the last bias stay at block 0 of both. -/
private theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT TILE t WRITES BACK: block t of the map of the whole arrays as the call finds them. The tile's output is the map of
    the tile's input blocks; the block of the input array is rows 4096 t … 4096 t + 4095 of the array, exactly the rows the
    output block's entries sit in, and the other three blocks are their whole arrays; an entry of the map reads one row. -/
private theorem flushed2_eq (c : Dev nD) (t : Fin cfg2.N) :
    (dat2 (F := Ideal) V c).flushed 4 t
      = ((cfg2.win 4).blk t).view.read (Elt Ideal)
          (Cert.Dense.reluDenseBias (R := 102400) (V c main_v63) (V c main_v64) (V c main_arg6) (V c main_v65)) := by
  show (cfg2.win 4).cut (grid2.coords t) ((dat2 V c).after 4 t) = _
  rw [after2_4]
  unfold out2_4
  rw [View.canon_unit_zero zero_offsets2]
  simp only [View.ld_unit_zero (S := S4096x64) zero_offsets2, View.ld_unit_zero (S := S1x64) zero_offsets2,
    View.ld_unit_zero (S := S64x1) zero_offsets2, View.ld_unit_zero (S := S1x1) zero_offsets2]
  rw [body2_eq_reluDenseBias]
  funext j
  show Cert.Dense.reluDenseBias (R := 4096) (iblk2 V c 0 t) (iblk2 V c 1 t) (iblk2 V c 2 t) (iblk2 V c 3 t) j
      = Cert.Dense.reluDenseBias (R := 102400) (V c main_v63) (V c main_v64) (V c main_arg6) (V c main_v65)
          (((cfg2.win 4).blk t).view.emb j)
  obtain ⟨e00, e01, e10, e11, e20, e21, e30, e31, e40, e41⟩ := block_indices2 t
  refine reluDenseBias_one_row _ _ _ _ _ _ _ _ _ _ (fun k => ?_) (fun k => ?_) (fun k => ?_) ?_
  · show V c main_v63 (((cfg2.win 0).blk t).view.emb (ix2 (Cert.Dense.rowOf j) k))
        = V c main_v63 (ix2 (Cert.Dense.rowOf (((cfg2.win 4).blk t).view.emb j)) k)
    refine congrArg _ (funext fun a => Fin.ext ?_)
    match a with
    | ⟨0, _⟩ =>
      show win2_0.index t (0 : Fin 2) * 4096 + 1 * (j 0).val = win2_4.index t (0 : Fin 2) * 4096 + 1 * (j 0).val
      omega
    | ⟨1, _⟩ =>
      show win2_0.index t (1 : Fin 2) * 64 + 1 * k.val = k.val
      omega
  · show V c main_v64 (((cfg2.win 1).blk t).view.emb (ix2 (0 : Fin 1) k)) = V c main_v64 (ix2 (0 : Fin 1) k)
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 64 + 1 * k.val = k.val
      omega
  · show V c main_arg6 (((cfg2.win 2).blk t).view.emb (ix2 k (Cert.Dense.colOf j)))
        = V c main_arg6 (ix2 k (Cert.Dense.colOf (((cfg2.win 4).blk t).view.emb j)))
    refine congrArg _ (funext fun a => Fin.ext ?_)
    match a with
    | ⟨0, _⟩ =>
      show win2_2.index t (0 : Fin 2) * 64 + 1 * k.val = k.val
      omega
    | ⟨1, _⟩ =>
      show win2_2.index t (1 : Fin 2) * 1 + 1 * (j 1).val = win2_4.index t (1 : Fin 2) * 1 + 1 * (j 1).val
      omega
  · show V c main_v65 (((cfg2.win 3).blk t).view.emb (ix2 (0 : Fin 1) (0 : Fin 1))) = V c main_v65 (ix2 (0 : Fin 1) (0 : Fin 1))
    refine congrArg _ (funext fun a => Fin.ext ?_)
    match a with
    | ⟨0, _⟩ =>
      show win2_3.index t (0 : Fin 2) * 1 + 1 * 0 = 0
      omega
    | ⟨1, _⟩ =>
      show win2_3.index t (1 : Fin 2) * 1 + 1 * 0 = 0
      omega

/-- An index of the output column is in tile t's block iff each coordinate is in the block's range on its axis. -/
private theorem mem_tile2 (t : Fin cfg2.N) (i : S102400x1.Idx) :
    i ∈ ((cfg2.win 4).blk t).view.set
      ↔ ∀ a : Fin 2, win2_4.index t a * S4096x1.size a ≤ (i a).val
          ∧ (i a).val < win2_4.index t a * S4096x1.size a + S4096x1.size a := by
  show i ∈ ((View.whole main_v66).slice (win2_4.rect t)).set ↔ _
  rw [View.set_slice_whole, Rect.mem_set_unit]
  exact Iff.rfl

/-- The twenty-five tiles of 4096 rows cover the 102400 rows: row r is in tile r / 4096, and every tile is written back. -/
private theorem tiles_cover2 (i : S102400x1.Idx) :
    ∃ t : Fin cfg2.N, (cfg2.win 4).flush t = true ∧ i ∈ ((cfg2.win 4).blk t).view.set := by
  have hi0 : (i 0).val < 102400 := (i 0).isLt
  have hi1 : (i 1).val < 1 := (i 1).isLt
  have hN : cfg2.N = 25 := N_2
  have ht : (i 0).val / 4096 < cfg2.N := by rw [hN]; omega
  refine ⟨⟨(i 0).val / 4096, ht⟩, flush2_4 _, ?_⟩
  rw [mem_tile2]
  obtain ⟨-, -, -, -, -, -, -, -, e40, e41⟩ := block_indices2 ⟨(i 0).val / 4096, ht⟩
  have e40' : win2_4.index ⟨(i 0).val / 4096, ht⟩ (0 : Fin 2) = (i 0).val / 4096 := e40
  intro a
  match a with
  | ⟨0, _⟩ =>
    show win2_4.index ⟨(i 0).val / 4096, ht⟩ (0 : Fin 2) * 4096 ≤ (i 0).val
      ∧ (i 0).val < win2_4.index ⟨(i 0).val / 4096, ht⟩ (0 : Fin 2) * 4096 + 4096
    rw [e40']
    omega
  | ⟨1, _⟩ =>
    show win2_4.index ⟨(i 0).val / 4096, ht⟩ (1 : Fin 2) * 1 ≤ (i 1).val
      ∧ (i 1).val < win2_4.index ⟨(i 0).val / 4096, ht⟩ (1 : Fin 2) * 1 + 1
    rw [e41]
    omega

/-- After the third call's twenty-five tiles the output column is the biased, clipped and contracted rows of the padded
    input array plus the last bias, whatever the buffers held when the call was entered. -/
theorem final2 (c : Dev nD) :
    (dat2 (F := Ideal) V c).arrAt 4 cfg2.N
      = Cert.Dense.reluDenseBias (R := 102400) (V c main_v63) (V c main_v64) (V c main_arg6) (V c main_v65) :=
  (dat2 (F := Ideal) V c).arrAt_eq_of_cover 4
    (Cert.Dense.reluDenseBias (R := 102400) (V c main_v63) (V c main_v64) (V c main_arg6) (V c main_v65))
    (fun t _ => flushed2_eq V c t) tiles_cover2

end Cert.KernelIdeal.Tiles

end
-- ==== Proof.LibDenseRows.lean ====
/-
  Rows of a dense layer over the extended reals.

  A graph layer takes, for each node r, the mean A (r, ·) of its neighbours' feature rows and the node's own row X (r, ·),
  sends the first through a weight matrix Wl and the second through Wr, and adds a bias row b:

      pre (r, c) = sum over k of A (r, k) * Wl (k, c)  +  sum over k of X (r, k) * Wr (k, c)  +  b (c).

  Two spellings of that entry are read here at any extents: the host's, two whole products [M, K] x [K, N] and the bias
  broadcast through a [1, N] row; and a tile's, two products of a block of rows into the zero accumulator and the bias
  cast to a [1, N] row and broadcast down the tile. Each is the entry `pre` of its operands; a tile of rows o … o + T - 1
  of the arrays is then the same entry at row o + r, since an entry of a product reads one row of the left operand only.
-/
import Idealize.ShloMosaic.Lib.ValueIdx
import Idealize.ShloMosaic.Lib.ValueLayout
import Idealize.ShloMosaic.Lib.Pipeline.Value
import Idealize.ShloMosaic.PureOps.Ideal.Laws
import proofs.«149976_j14748917694868_1_alg».proof.Proof.LibPlainMatmul

noncomputable section

namespace Cert.DenseRows

open Idealize.ShloMosaic Idealize.ShloMosaic.ValueIdx

variable {M K N : ℕ}

/-- Entry (r, c) of the host's product [M, K] x [K, N] is the sum over k of a (r, k) * b (k, c). -/
theorem hostDot_apply (prec : Option ContractPrecision) {φ₁ φ₂ : FTy} (a : FVec Ideal ⟨2, ![M, K]⟩ φ₁) (b : FVec Ideal ⟨2, ![K, N]⟩ φ₂)
    (r : Fin M) (c : Fin N) :
    Host.dotGeneral (DotDims.plain M K N) prec a b (ix2 r c) = ∑ k : Fin K, a (ix2 r k) * b (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-- The layer's entry (r, c) before its activation. -/
def pre (A X : (⟨2, ![M, K]⟩ : Shape).Idx → EReal) (Wl Wr : (⟨2, ![K, N]⟩ : Shape).Idx → EReal)
    (b : (⟨1, ![N]⟩ : Shape).Idx → EReal) (r : Fin M) (c : Fin N) : EReal :=
  (∑ k : Fin K, A (ix2 r k) * Wl (ix2 k c)) + (∑ k : Fin K, X (ix2 r k) * Wr (ix2 k c)) + b (ix1 c)

/-- A bias row broadcast first to [1, N] and then to [M, N] reads, at (r, c), the bias at c. -/
theorem hostBias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  rw [broadcastInDim_apply ![0, 1] h2 _ (ix2 r c) (ix2 (0 : Fin 1) c) (fun a => by
    match a with
    | ⟨0, _⟩ => rfl
    | ⟨1, _⟩ =>
      show c.val = if N = 1 then 0 else c.val
      split
      · have := c.isLt; omega
      · rfl)]
  exact broadcastInDim_apply ![1] h1 b (ix2 (0 : Fin 1) c) (ix1 c) (fun a => by
    match a with
    | ⟨0, _⟩ =>
      show c.val = if N = 1 then 0 else c.val
      split
      · have := c.isLt; omega
      · rfl)

/-- The host's spelling of the layer before its activation — two whole products added, then the bias broadcast through a
    [1, N] row — is `pre` at every entry. -/
theorem host_pre (prec : Option ContractPrecision) (A X : FVec Ideal ⟨2, ![M, K]⟩ .f32) (Wl Wr : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    addf (addf (Host.dotGeneral (DotDims.plain M K N) prec A Wl) (Host.dotGeneral (DotDims.plain M K N) prec X Wr))
        (broadcastInDim ⟨2, ![M, N]⟩ ![0, 1] h2 (broadcastInDim ⟨2, ![1, N]⟩ ![1] h1 b)) (ix2 r c)
      = pre A X Wl Wr b r c := by
  show Host.dotGeneral (DotDims.plain M K N) prec A Wl (ix2 r c) + Host.dotGeneral (DotDims.plain M K N) prec X Wr (ix2 r c)
      + broadcastInDim ⟨2, ![M, N]⟩ ![0, 1] h2 (broadcastInDim ⟨2, ![1, N]⟩ ![1] h1 b) (ix2 r c) = _
  rw [hostDot_apply, hostDot_apply, hostBias_apply]
  rfl

/-- A tile's spelling — two products of [M, K] blocks into the zero accumulator added, then the bias cast to a [1, N] row and
    broadcast down the tile — is `pre` of the tile's operands at every entry, whatever the operands' float formats. -/
theorem tile_pre (prec : Option ContractPrecision) {φa φw : FTy} (A X : FVec Ideal ⟨2, ![M, K]⟩ φa) (Wl Wr : FVec Ideal ⟨2, ![K, N]⟩ φw)
    (b : FVec Ideal ⟨1, ![N]⟩ .f32)
    (h1 : (⟨1, ![N]⟩ : Shape).ShapeCasts ⟨2, ![1, N]⟩)
    (h2 : (⟨2, ![1, N]⟩ : Shape).Broadcasts ⟨2, ![M, N]⟩) (r : Fin M) (c : Fin N) :
    addf (addf (matmul (DotDims.plain M K N) prec A Wl (constant ⟨2, ![M, N]⟩ .f32 0x00000000#32))
          (matmul (DotDims.plain M K N) prec X Wr (constant ⟨2, ![M, N]⟩ .f32 0x00000000#32)))
        (broadcastTo ⟨2, ![M, N]⟩ (shapeCast ⟨2, ![1, N]⟩ b h1) h2) (ix2 r c)
      = pre A X Wl Wr b r c := by
  show FloatOps.matmul (DotDims.plain M K N) prec A Wl (constant ⟨2, ![M, N]⟩ .f32 0x00000000#32) (ix2 r c)
      + FloatOps.matmul (DotDims.plain M K N) prec X Wr (constant ⟨2, ![M, N]⟩ .f32 0x00000000#32) (ix2 r c)
      + broadcastTo ⟨2, ![M, N]⟩ (shapeCast ⟨2, ![1, N]⟩ b h1) h2 (ix2 r c) = _
  rw [Cert.PlainMatmul.apply, Cert.PlainMatmul.apply, broadcastTo_1b_ab_apply, shapeCast_a_1a_apply]
  rfl

/-- An entry of the layer reads one row of each left operand: if a tile's left operands are rows o, o + 1, … of the arrays'
    and its weights and bias are the arrays', the tile's entry (r, c) is the arrays' entry (o + r, c). -/
theorem pre_rows {T : ℕ} (o : ℕ) (A X : (⟨2, ![M, K]⟩ : Shape).Idx → EReal) (Wl Wr : (⟨2, ![K, N]⟩ : Shape).Idx → EReal)
    (b : (⟨1, ![N]⟩ : Shape).Idx → EReal)
    (At Xt : (⟨2, ![T, K]⟩ : Shape).Idx → EReal) (Wlt Wrt : (⟨2, ![K, N]⟩ : Shape).Idx → EReal) (bt : (⟨1, ![N]⟩ : Shape).Idx → EReal)
    (r : Fin T) (R : Fin M) (hR : R.val = o + r.val) (c : Fin N)
    (hA : ∀ k : Fin K, At (ix2 r k) = A (ix2 R k)) (hX : ∀ k : Fin K, Xt (ix2 r k) = X (ix2 R k))
    (hWl : ∀ k : Fin K, Wlt (ix2 k c) = Wl (ix2 k c)) (hWr : ∀ k : Fin K, Wrt (ix2 k c) = Wr (ix2 k c))
    (hb : bt (ix1 c) = b (ix1 c)) :
    pre At Xt Wlt Wrt bt r c = pre A X Wl Wr b R c := by
  unfold pre
  rw [hb]
  congr 2
  · exact Finset.sum_congr rfl fun k _ => by rw [hA k, hWl k]
  · exact Finset.sum_congr rfl fun k _ => by rw [hX k, hWr k]

end Cert.DenseRows

end
-- ==== Proof.Rows.lean ====
/-
  Rows below the last row do not reach the rows above.

  Each of the three dense maps is computed on the array with 2400 rows appended below its 100000 rows, and the first
  100000 rows of the result are kept. An entry of a dense map reads one row of its first operand, and the first 100000
  rows of the padded operand are the operand's own, so the kept rows are the dense map of the operand itself — whatever
  was appended. Read as the host spells them: a whole matrix product (for the outer product, a product with one
  contracted index), a bias laid along the rows through a one-row array, a maximum with an array of zeros.
-/
import proofs.«149976_j14748917694868_1_alg».proof.KernelIdeal
import proofs.«149976_j14748917694868_1_alg».proof.ReferenceIdeal
import proofs.«149976_j14748917694868_1_alg».proof.Proof.Dense
import proofs.«149976_j14748917694868_1_alg».proof.Proof.LibPlainMatmul
import proofs.«149976_j14748917694868_1_alg».proof.Proof.LibDenseRows
import Idealize.ShloMosaic.Lib.Pipeline.Value
import Idealize.ShloMosaic.Lib.ValueLayout
import Idealize.ShloMosaic.Lib.KernelVsHost
import Idealize.ShloMosaic.PureOps.Ideal.Laws

noncomputable section

namespace Cert.Rows

open Idealize.ShloMosaic Idealize.ShloMosaic.ValueIdx
open scoped BigOperators

-- the reference's contraction records carry the program's stated side conditions
variable [Cert.ReferenceIdeal.Facts₀]

/-- The reference's record for the product [100000, 1] x [1, 64] is the plain one. -/
private theorem dot_outer_eq :
    Cert.ReferenceIdeal.dot_S100000x1_S1x64_S100000x64_1_0_0_1_n_n = DotDims.plain 100000 1 64 := rfl

/-- The reference's record for the product [100000, 64] x [64, 64] is the plain one. -/
private theorem dot_mid_eq :
    Cert.ReferenceIdeal.dot_S100000x64_S64x64_S100000x64_1_0_0_1_n_n = DotDims.plain 100000 64 64 := rfl

/-- The reference's record for the product [100000, 64] x [64, 1] is the plain one. -/
private theorem dot_last_eq :
    Cert.ReferenceIdeal.dot_S100000x64_S64x1_S100000x1_1_0_0_1_n_n = DotDims.plain 100000 64 1 := rfl

/-- A row above the appended ones is the array's own row, whatever was appended. -/
private theorem pad_row {C : ℕ} (x : FVec Ideal ⟨2, ![100000, C]⟩ .f32) (z : FVec Ideal ⟨0, ![]⟩ .f32)
    (hp : (⟨2, ![100000, C]⟩ : Shape).Pads ![0, 0] ![2400, 0] ![0, 0] ⟨2, ![102400, C]⟩) (hu : 0 < (⟨0, ![]⟩ : Shape).numel)
    (r : Fin 100000) (k : Fin 102400) (hk : k.val = 0 + r.val) (e : Fin C) :
    pad ⟨2, ![102400, C]⟩ ![0, 0] ![2400, 0] ![0, 0] x z hp hu (ix2 k e) = x (ix2 r e) :=
  pad_apply_of_inside ![0, 0] ![2400, 0] ![0, 0] x z hp hu (ix2 k e) (ix2 r e) (fun a => by
    match a with
    | ⟨0, _⟩ => show k.val = 0 + r.val * (0 + 1); omega
    | ⟨1, _⟩ => show e.val = 0 + e.val * (0 + 1); omega)

/-- The clipped, biased array as the host spells it, read at an entry. -/
private theorem hostRelu_apply (a : FVec Ideal ⟨2, ![100000, 64]⟩ .f32) (b : FVec Ideal ⟨1, ![64]⟩ .f32)
    (hb1 : (⟨1, ![64]⟩ : Shape).BroadcastsInDim ⟨2, ![1, 64]⟩ ![1])
    (hb2 : (⟨2, ![1, 64]⟩ : Shape).BroadcastsInDim ⟨2, ![100000, 64]⟩ ![0, 1])
    (hb0 : (⟨0, ![]⟩ : Shape).BroadcastsInDim ⟨2, ![100000, 64]⟩ ![]) (r : Fin 100000) (k : Fin 64) :
    maximumf (addf a (broadcastInDim ⟨2, ![100000, 64]⟩ ![0, 1] hb2 (broadcastInDim ⟨2, ![1, 64]⟩ ![1] hb1 b)))
        (broadcastInDim ⟨2, ![100000, 64]⟩ ![] hb0 (constant ⟨0, ![]⟩ .f32 0x00000000#32)) (ix2 r k)
      = max (a (ix2 r k) + b (ix1 k)) 0 := by
  show max (a (ix2 r k) + broadcastInDim ⟨2, ![100000, 64]⟩ ![0, 1] hb2 (broadcastInDim ⟨2, ![1, 64]⟩ ![1] hb1 b) (ix2 r k))
      (broadcastInDim ⟨2, ![100000, 64]⟩ ![] hb0 (constant ⟨0, ![]⟩ .f32 0x00000000#32) (ix2 r k)) = _
  rw [Cert.DenseRows.hostBias_apply]
  show max (a (ix2 r k) + b (ix1 k)) (Ideal.ofBits .f32 0x00000000#32) = _
  rw [Ideal.ofBits_zero_f32]

/-- The kept rows of the outer product of the padded column are the host's product of the column with the weight row. -/
theorem rows_outer_pad (x : FVec Ideal ⟨2, ![100000, 1]⟩ .f32) (z : FVec Ideal ⟨0, ![]⟩ .f32) (w : FVec Ideal ⟨2, ![1, 64]⟩ .f32)
    (hp : (⟨2, ![100000, 1]⟩ : Shape).Pads ![0, 0] ![2400, 0] ![0, 0] ⟨2, ![102400, 1]⟩) (hu : 0 < (⟨0, ![]⟩ : Shape).numel)
    (hs : (⟨2, ![102400, 64]⟩ : Shape).Slices ![0, 0] ⟨2, ![100000, 64]⟩) :
    extractStridedSlice ⟨2, ![100000, 64]⟩ ![0, 0]
        (Cert.Dense.outer (pad ⟨2, ![102400, 1]⟩ ![0, 0] ![2400, 0] ![0, 0] x z hp hu) w) hs
      = Host.dotGeneral Cert.ReferenceIdeal.dot_S100000x1_S1x64_S100000x64_1_0_0_1_n_n none x w := by
  funext i
  rw [Cert.Dense.eq_ix2_row_col i, dot_outer_eq, Cert.DenseRows.hostDot_apply, Fin.sum_univ_one]
  refine (slice2_axis0_eq 0 _ hs _ _).trans ?_
  rw [Cert.Dense.outer_apply, pad_row x z hp hu (Cert.Dense.rowOf i) _ rfl]

/-- The kept rows of the second dense map of the padded array are the host's product of the biased, clipped array with the
    weight matrix. -/
theorem rows_reluDense_pad (a : FVec Ideal ⟨2, ![100000, 64]⟩ .f32) (z : FVec Ideal ⟨0, ![]⟩ .f32)
    (b : FVec Ideal ⟨1, ![64]⟩ .f32) (w : FVec Ideal ⟨2, ![64, 64]⟩ .f32)
    (hp : (⟨2, ![100000, 64]⟩ : Shape).Pads ![0, 0] ![2400, 0] ![0, 0] ⟨2, ![102400, 64]⟩) (hu : 0 < (⟨0, ![]⟩ : Shape).numel)
    (hc : (⟨1, ![64]⟩ : Shape).ShapeCasts ⟨2, ![1, 64]⟩)
    (hs : (⟨2, ![102400, 64]⟩ : Shape).Slices ![0, 0] ⟨2, ![100000, 64]⟩)
    (hb1 : (⟨1, ![64]⟩ : Shape).BroadcastsInDim ⟨2, ![1, 64]⟩ ![1])
    (hb2 : (⟨2, ![1, 64]⟩ : Shape).BroadcastsInDim ⟨2, ![100000, 64]⟩ ![0, 1])
    (hb0 : (⟨0, ![]⟩ : Shape).BroadcastsInDim ⟨2, ![100000, 64]⟩ ![]) :
    extractStridedSlice ⟨2, ![100000, 64]⟩ ![0, 0]
        (Cert.Dense.reluDense (pad ⟨2, ![102400, 64]⟩ ![0, 0] ![2400, 0] ![0, 0] a z hp hu) (shapeCast ⟨2, ![1, 64]⟩ b hc) w) hs
      = Host.dotGeneral Cert.ReferenceIdeal.dot_S100000x64_S64x64_S100000x64_1_0_0_1_n_n none
          (maximumf (addf a (broadcastInDim ⟨2, ![100000, 64]⟩ ![0, 1] hb2 (broadcastInDim ⟨2, ![1, 64]⟩ ![1] hb1 b)))
            (broadcastInDim ⟨2, ![100000, 64]⟩ ![] hb0 (constant ⟨0, ![]⟩ .f32 0x00000000#32))) w := by
  funext i
  rw [Cert.Dense.eq_ix2_row_col i, dot_mid_eq, Cert.DenseRows.hostDot_apply]
  refine (slice2_axis0_eq 0 _ hs _ _).trans ?_
  rw [Cert.Dense.reluDense_apply]
  refine Finset.sum_congr rfl fun k _ => ?_
  rw [pad_row a z hp hu (Cert.Dense.rowOf i) _ rfl, shapeCast_a_1a_apply, hostRelu_apply]

/-- The kept rows of the third dense map of the padded array are the host's product of the biased, clipped array with the
    weight column, plus the last bias laid along the rows. -/
theorem rows_reluDenseBias_pad (a : FVec Ideal ⟨2, ![100000, 64]⟩ .f32) (z : FVec Ideal ⟨0, ![]⟩ .f32)
    (b : FVec Ideal ⟨1, ![64]⟩ .f32) (w : FVec Ideal ⟨2, ![64, 1]⟩ .f32) (bo : FVec Ideal ⟨1, ![1]⟩ .f32)
    (hp : (⟨2, ![100000, 64]⟩ : Shape).Pads ![0, 0] ![2400, 0] ![0, 0] ⟨2, ![102400, 64]⟩) (hu : 0 < (⟨0, ![]⟩ : Shape).numel)
    (hc : (⟨1, ![64]⟩ : Shape).ShapeCasts ⟨2, ![1, 64]⟩) (hco : (⟨1, ![1]⟩ : Shape).ShapeCasts ⟨2, ![1, 1]⟩)
    (hs : (⟨2, ![102400, 1]⟩ : Shape).Slices ![0, 0] ⟨2, ![100000, 1]⟩)
    (hb1 : (⟨1, ![64]⟩ : Shape).BroadcastsInDim ⟨2, ![1, 64]⟩ ![1])
    (hb2 : (⟨2, ![1, 64]⟩ : Shape).BroadcastsInDim ⟨2, ![100000, 64]⟩ ![0, 1])
    (hb0 : (⟨0, ![]⟩ : Shape).BroadcastsInDim ⟨2, ![100000, 64]⟩ ![])
    (ho1 : (⟨1, ![1]⟩ : Shape).BroadcastsInDim ⟨2, ![1, 1]⟩ ![1])
    (ho2 : (⟨2, ![1, 1]⟩ : Shape).BroadcastsInDim ⟨2, ![100000, 1]⟩ ![0, 1]) :
    extractStridedSlice ⟨2, ![100000, 1]⟩ ![0, 0]
        (Cert.Dense.reluDenseBias (pad ⟨2, ![102400, 64]⟩ ![0, 0] ![2400, 0] ![0, 0] a z hp hu) (shapeCast ⟨2, ![1, 64]⟩ b hc) w
          (shapeCast ⟨2, ![1, 1]⟩ bo hco)) hs
      = addf (Host.dotGeneral Cert.ReferenceIdeal.dot_S100000x64_S64x1_S100000x1_1_0_0_1_n_n none
          (maximumf (addf a (broadcastInDim ⟨2, ![100000, 64]⟩ ![0, 1] hb2 (broadcastInDim ⟨2, ![1, 64]⟩ ![1] hb1 b)))
            (broadcastInDim ⟨2, ![100000, 64]⟩ ![] hb0 (constant ⟨0, ![]⟩ .f32 0x00000000#32))) w)
          (broadcastInDim ⟨2, ![100000, 1]⟩ ![0, 1] ho2 (broadcastInDim ⟨2, ![1, 1]⟩ ![1] ho1 bo)) := by
  funext i
  rw [Cert.Dense.eq_ix2_row_col i, dot_last_eq]
  refine (slice2_axis0_eq 0 _ hs _ _).trans ?_
  show _ = Host.dotGeneral (DotDims.plain 100000 64 1) none _ w (ix2 (Cert.Dense.rowOf i) (Cert.Dense.colOf i))
      + broadcastInDim ⟨2, ![100000, 1]⟩ ![0, 1] ho2 (broadcastInDim ⟨2, ![1, 1]⟩ ![1] ho1 bo)
          (ix2 (Cert.Dense.rowOf i) (Cert.Dense.colOf i))
  rw [Cert.Dense.reluDenseBias_apply, Cert.DenseRows.hostDot_apply, Cert.DenseRows.hostBias_apply, shapeCast_a_1a_apply]
  have hq : Cert.Dense.colOf i = (0 : Fin 1) := Subsingleton.elim _ _
  rw [hq]
  refine congrArg (· + bo (ix1 (0 : Fin 1))) (Finset.sum_congr rfl fun k _ => ?_)
  rw [pad_row a z hp hu (Cert.Dense.rowOf i) _ rfl, shapeCast_a_1a_apply, hostRelu_apply]

end Cert.Rows

end
-- ==== Proof.Fold.lean ====
/-
  The contents of the program's buffers at the boundaries between its host stretches and its three calls, read back to
  the launch memory.

  The program computes, on the host, the two index vectors of the graph's edges with the self loops appended (sources and
  targets) and the per-edge normalisation; then three times a dense map on a zero-padded array inside a call, each but
  the last followed on the host by the cut back to 100000 rows, the take of rows by source, the scaling and the
  accumulation by target. The reference computes the same host operations around three whole matrix products. Each
  boundary's facts are stated in the reference's own stages (the value each of its operations writes, as a function of
  the arguments): the index vectors and the normalisation are the same operations on the same argument; after each call,
  the kept rows of the call's result are the reference's product (rows appended below do not reach the rows above), and
  the operations that follow are again the same on equal operands.
-/
import proofs.«149976_j14748917694868_1_alg».proof.Proof.Gen.KernelIdeal.Frame
import proofs.«149976_j14748917694868_1_alg».proof.Proof.RefRead
import proofs.«149976_j14748917694868_1_alg».proof.Proof.Tile0
import proofs.«149976_j14748917694868_1_alg».proof.Proof.Tile1
import proofs.«149976_j14748917694868_1_alg».proof.Proof.Tile2
import proofs.«149976_j14748917694868_1_alg».proof.Proof.Rows
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.SL.Sem
open Cert.KernelIdeal Cert.KernelIdeal.Gen
open Cert.ReferenceIdeal.Read

/-! ## What each host stretch writes, and so what it keeps -/

/-- One operation writes only its result, which is in the list. -/
local macro "writes_in" : tactic =>
  `(tactic| (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]; exact List.mem_map_of_mem (by decide)))

abbrev wr0 : List (Ref sig .tc) := [main_v0, main_v1, main_v2, main_v3, main_v4, main_v5, main_v6, main_cst, main_v7, main_cst_0,
  main_v8, main_v9, main_v10, main_cst_1, main_v11, main_v12, main_v13, main_cst_2]
abbrev wr0_1 : List (Ref sig .tc) := [main_call0_v0, main_call0_v1, main_v14]
abbrev wr0_2 : List (Ref sig .tc) := [main_c, main_v15, main_v16, main_c_3, main_v17, main_v18, main_v19, main_v20, main_v21, main_c_4,
  main_v22, main_v23, main_c_5, main_v24, main_v25, main_v26, main_v27, main_v28, main_v29, main_c_6]
abbrev wr0_3 : List (Ref sig .tc) := [main_call1_v0, main_v30]
abbrev wr1 : List (Ref sig .tc) := [main_v32, main_c_7, main_v33, main_v34, main_c_8, main_v35, main_v36, main_v37, main_v38, main_v39,
  main_v40, main_v41, main_v42, main_cst_9, main_v43, main_v44, main_v45, main_c_10]
abbrev wr1_1 : List (Ref sig .tc) := [main_call2_v0, main_v46]
abbrev wr1_2 : List (Ref sig .tc) := [main_v47]
abbrev wr2 : List (Ref sig .tc) := [main_v49, main_c_11, main_v50, main_v51, main_c_12, main_v52, main_v53, main_v54, main_v55, main_v56,
  main_v57, main_v58, main_v59, main_cst_13, main_v60, main_v61, main_v62, main_c_14]
abbrev wr2_1 : List (Ref sig .tc) := [main_call3_v0, main_v63]
abbrev wr2_2 : List (Ref sig .tc) := [main_v64, main_v65]
abbrev wr3 : List (Ref sig .tc) := [main_v67, main_v68]

theorem writes0 : (hostOps0 : List (HloOp τ sig (Elt Ideal))).Forall fun op => op.writes ⊆ (wr0.map (Proc.devRef (τ := τ) .tc)).toFinset := by
  simp only [List.Forall]; repeat' apply And.intro
  all_goals writes_in
theorem writes0_1 : (hostOps0_1 : List (HloOp τ sig (Elt Ideal))).Forall fun op => op.writes ⊆ (wr0_1.map (Proc.devRef (τ := τ) .tc)).toFinset := by
  simp only [List.Forall]; repeat' apply And.intro
  all_goals writes_in
theorem writes0_2 : (hostOps0_2 : List (HloOp τ sig (Elt Ideal))).Forall fun op => op.writes ⊆ (wr0_2.map (Proc.devRef (τ := τ) .tc)).toFinset := by
  simp only [List.Forall]; repeat' apply And.intro
  all_goals writes_in
theorem writes0_3 : (hostOps0_3 : List (HloOp τ sig (Elt Ideal))).Forall fun op => op.writes ⊆ (wr0_3.map (Proc.devRef (τ := τ) .tc)).toFinset := by
  simp only [List.Forall]; repeat' apply And.intro
  all_goals writes_in
theorem writes1 : (hostOps1 : List (HloOp τ sig (Elt Ideal))).Forall fun op => op.writes ⊆ (wr1.map (Proc.devRef (τ := τ) .tc)).toFinset := by
  simp only [List.Forall]; repeat' apply And.intro
  all_goals writes_in
theorem writes1_1 : (hostOps1_1 : List (HloOp τ sig (Elt Ideal))).Forall fun op => op.writes ⊆ (wr1_1.map (Proc.devRef (τ := τ) .tc)).toFinset := by
  simp only [List.Forall]; repeat' apply And.intro
  all_goals writes_in
theorem writes1_2 : (hostOps1_2 : List (HloOp τ sig (Elt Ideal))).Forall fun op => op.writes ⊆ (wr1_2.map (Proc.devRef (τ := τ) .tc)).toFinset := by
  simp only [List.Forall]; writes_in
theorem writes2 : (hostOps2 : List (HloOp τ sig (Elt Ideal))).Forall fun op => op.writes ⊆ (wr2.map (Proc.devRef (τ := τ) .tc)).toFinset := by
  simp only [List.Forall]; repeat' apply And.intro
  all_goals writes_in
theorem writes2_1 : (hostOps2_1 : List (HloOp τ sig (Elt Ideal))).Forall fun op => op.writes ⊆ (wr2_1.map (Proc.devRef (τ := τ) .tc)).toFinset := by
  simp only [List.Forall]; repeat' apply And.intro
  all_goals writes_in
theorem writes2_2 : (hostOps2_2 : List (HloOp τ sig (Elt Ideal))).Forall fun op => op.writes ⊆ (wr2_2.map (Proc.devRef (τ := τ) .tc)).toFinset := by
  simp only [List.Forall]; repeat' apply And.intro
  all_goals writes_in
theorem writes3 : (hostOps3 : List (HloOp τ sig (Elt Ideal))).Forall fun op => op.writes ⊆ (wr3.map (Proc.devRef (τ := τ) .tc)).toFinset := by
  simp only [List.Forall]; repeat' apply And.intro
  all_goals writes_in

variable (m : (ℓ : Loc nD τ sig) → Buf (Elt Ideal) ℓ) (ρ : Dev nD → PrngReg) (c : Dev nD)

/-- A buffer the first stretch and the three that follow it do not write holds, when the first call is entered, what it
    held at launch. -/
theorem keep_0_4 (r : Ref sig .tc) (h : r ∉ wr0 ++ wr0_1 ++ wr0_2 ++ wr0_3) :
    W4 m ρ c (Proc.devRef .tc r) = m ((c.tc : Thread nD τ).loc r) := by
  simp only [List.mem_append, not_or] at h
  obtain ⟨⟨⟨h0, h1⟩, h2⟩, h3⟩ := h
  exact (StableHlo.after_of_writes_sub hostOps0_3 _ writes0_3 h3).trans
    ((StableHlo.after_of_writes_sub hostOps0_2 _ writes0_2 h2).trans
      ((StableHlo.after_of_writes_sub hostOps0_1 _ writes0_1 h1).trans
        (StableHlo.after_of_writes_sub hostOps0 _ writes0 h0)))

/-! ## The launch arguments -/

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)
abbrev arg5 := m ((c.tc : Thread nD τ).loc main_arg5)
abbrev arg6 := m ((c.tc : Thread nD τ).loc main_arg6)
abbrev arg7 := m ((c.tc : Thread nD τ).loc main_arg7)

/-- The value appended below an array's last row: the integer zero read as a float (its value never matters). -/
abbrev fill : FVec Ideal S_ .f32 := sitofp (F := Ideal) .f32 (constantI S_ 32 0#32)

/-! ## Before the first call: the edges' sources and targets and their normalisation -/

/-- The sources, the edges' first row with the self loops appended, are the reference's. -/
theorem W1_v3 : W1 m ρ c (Proc.devRef .tc main_v3) = val_main_v3 (F := Ideal) (arg1 m c) := by
  show StableHlo.after hostOps0 (W0 m ρ c) (Proc.devRef .tc main_v3) = _
  have h1 : W0 m ρ c (Proc.devRef .tc main_arg1) = arg1 m c := rfl
  generalize W0 m ρ c = X at h1 ⊢
  after_results
  rw [h1]; rfl

/-- The targets, the edges' second row with the self loops appended, are the reference's. -/
theorem W1_v6 : W1 m ρ c (Proc.devRef .tc main_v6) = val_main_v6 (F := Ideal) (arg1 m c) := by
  show StableHlo.after hostOps0 (W0 m ρ c) (Proc.devRef .tc main_v6) = _
  have h1 : W0 m ρ c (Proc.devRef .tc main_arg1) = arg1 m c := rfl
  generalize W0 m ρ c = X at h1 ⊢
  after_results
  rw [h1]; rfl

/-- "The degree is positive", node by node. -/
theorem W1_v12 : W1 m ρ c (Proc.devRef .tc main_v12) = val_main_v12 (F := Ideal) (arg1 m c) := by
  show StableHlo.after hostOps0 (W0 m ρ c) (Proc.devRef .tc main_v12) = _
  have h1 : W0 m ρ c (Proc.devRef .tc main_arg1) = arg1 m c := rfl
  generalize W0 m ρ c = X at h1 ⊢
  after_results
  rw [h1]; rfl

/-- The reciprocal square root of the degree, node by node. -/
theorem W1_v13 : W1 m ρ c (Proc.devRef .tc main_v13) = val_main_v13 (F := Ideal) (arg1 m c) := by
  show StableHlo.after hostOps0 (W0 m ρ c) (Proc.devRef .tc main_v13) = _
  have h1 : W0 m ρ c (Proc.devRef .tc main_arg1) = arg1 m c := rfl
  generalize W0 m ρ c = X at h1 ⊢
  after_results
  rw [h1]; rfl

theorem W1_cst2 : W1 m ρ c (Proc.devRef .tc main_cst_2) = val_main_cst_2 (F := Ideal) := by
  show StableHlo.after hostOps0 (W0 m ρ c) (Proc.devRef .tc main_cst_2) = _
  generalize W0 m ρ c = X
  after_results
  rfl

/-- The normalisation factor of a node: the reciprocal square root of its degree where that is positive, zero elsewhere. -/
theorem W2_v14 : W2 m ρ c (Proc.devRef .tc main_v14) = val_main_v14 (F := Ideal) (arg1 m c) := by
  show StableHlo.after hostOps0_1 (W1 m ρ c) (Proc.devRef .tc main_v14) = _
  have h12 := W1_v12 m ρ c
  have h13 := W1_v13 m ρ c
  have hc := W1_cst2 m ρ c
  generalize W1 m ρ c = X at h12 h13 hc ⊢
  after_results
  try simp only [StableHlo.TRef.ofBuf, StableHlo.TRef.toBuf, cast_eq]
  rw [h12, h13, hc]; rfl

theorem W2_v3 : W2 m ρ c (Proc.devRef .tc main_v3) = val_main_v3 (F := Ideal) (arg1 m c) :=
  (StableHlo.after_of_writes_sub hostOps0_1 _ writes0_1 (by decide)).trans (W1_v3 m ρ c)
theorem W2_v6 : W2 m ρ c (Proc.devRef .tc main_v6) = val_main_v6 (F := Ideal) (arg1 m c) :=
  (StableHlo.after_of_writes_sub hostOps0_1 _ writes0_1 (by decide)).trans (W1_v6 m ρ c)

/-- The normalisation of an edge: the product of its source's factor and its target's. -/
theorem W3_v29 : W3 m ρ c (Proc.devRef .tc main_v29) = val_main_v29 (F := Ideal) (arg1 m c) := by
  show StableHlo.after hostOps0_2 (W2 m ρ c) (Proc.devRef .tc main_v29) = _
  have h3 := W2_v3 m ρ c
  have h6 := W2_v6 m ρ c
  have h14 := W2_v14 m ρ c
  generalize W2 m ρ c = X at h3 h6 h14 ⊢
  after_results_simp
  rw [h3, h6, h14]; rfl

theorem W3_c6 : W3 m ρ c (Proc.devRef .tc main_c_6) = constantI S_ 32 0#32 := by
  show StableHlo.after hostOps0_2 (W2 m ρ c) (Proc.devRef .tc main_c_6) = _
  generalize W2 m ρ c = X
  after_results

/-- A buffer the stretches between the first boundary and the first call do not write. -/
theorem keep_1_4 (r : Ref sig .tc) (h : r ∉ wr0_1 ++ wr0_2 ++ wr0_3) :
    W4 m ρ c (Proc.devRef .tc r) = W1 m ρ c (Proc.devRef .tc r) := by
  simp only [List.mem_append, not_or] at h
  obtain ⟨⟨h1, h2⟩, h3⟩ := h
  exact (StableHlo.after_of_writes_sub hostOps0_3 _ writes0_3 h3).trans
    ((StableHlo.after_of_writes_sub hostOps0_2 _ writes0_2 h2).trans
      (StableHlo.after_of_writes_sub hostOps0_1 _ writes0_1 h1))

theorem W3_arg0 : W3 m ρ c (Proc.devRef .tc main_arg0) = arg0 m c :=
  (StableHlo.after_of_writes_sub hostOps0_2 _ writes0_2 (by decide)).trans
    ((StableHlo.after_of_writes_sub hostOps0_1 _ writes0_1 (by decide)).trans
      (StableHlo.after_of_writes_sub hostOps0 _ writes0 (by decide)))

/-- The first call's input column: the features with 2400 rows appended. -/
theorem W4_v30 : W4 m ρ c (Proc.devRef .tc main_v30)
    = pad S102400x1 ![0, 0] ![2400, 0] ![0, 0] (arg0 m c) fill Facts₀.pads_S100000x1_S102400x1_024000_000 Facts₀.h_S_ := by
  show StableHlo.after hostOps0_3 (W3 m ρ c) (Proc.devRef .tc main_v30) = _
  have h0 := W3_arg0 m ρ c
  have hc := W3_c6 m ρ c
  generalize W3 m ρ c = X at h0 hc ⊢
  after_results
  try simp only [StableHlo.TRef.ofBuf, StableHlo.TRef.toBuf, cast_eq]
  rw [h0, hc]

/-! ## The first call and the first aggregation -/

/-- After the first call its output array is the outer product of the padded features and the first weight row. -/
theorem W5_v31 : W5 m ρ c (Proc.devRef .tc main_v31)
    = Cert.Dense.outer (R := 102400)
        (pad S102400x1 ![0, 0] ![2400, 0] ![0, 0] (arg0 m c) fill Facts₀.pads_S100000x1_S102400x1_024000_000 Facts₀.h_S_)
        (arg2 m c) := by
  have h := (W5_arr m ρ c 2).trans (Cert.KernelIdeal.Tiles.final0 (V4 m ρ) c)
  rw [show V4 m ρ c main_v30 = _ from W4_v30 m ρ c,
    show V4 m ρ c main_arg2 = _ from keep_0_4 m ρ c main_arg2 (by decide)] at h
  exact h

theorem W5_v3 : W5 m ρ c (Proc.devRef .tc main_v3) = val_main_v3 (F := Ideal) (arg1 m c) :=
  (W5_of_ne m ρ c main_v3 (by decide)).trans ((keep_1_4 m ρ c main_v3 (by decide)).trans (W1_v3 m ρ c))
theorem W5_v6 : W5 m ρ c (Proc.devRef .tc main_v6) = val_main_v6 (F := Ideal) (arg1 m c) :=
  (W5_of_ne m ρ c main_v6 (by decide)).trans ((keep_1_4 m ρ c main_v6 (by decide)).trans (W1_v6 m ρ c))
theorem W5_v29 : W5 m ρ c (Proc.devRef .tc main_v29) = val_main_v29 (F := Ideal) (arg1 m c) :=
  (W5_of_ne m ρ c main_v29 (by decide)).trans
    ((StableHlo.after_of_writes_sub hostOps0_3 _ writes0_3 (by decide)).trans (W3_v29 m ρ c))
/-- An argument the first call does not write holds at its exit what it held at launch. -/
theorem W5_arg (r : Ref sig .tc) (h : r ∉ wr0 ++ wr0_1 ++ wr0_2 ++ wr0_3) (hw : ∀ w, Pipeline.arrRef spec0 w ≠ r) :
    W5 m ρ c (Proc.devRef .tc r) = m ((c.tc : Thread nD τ).loc r) :=
  (W5_of_ne m ρ c r hw).trans (keep_0_4 m ρ c r h)

/-- The first aggregation: the kept rows of the first call's result are the reference's first product, and the take of
    rows by source, the scaling and the accumulation by target are the reference's operations on equal operands. -/
theorem W6_v45 : W6 m ρ c (Proc.devRef .tc main_v45) = val_main_v43 (F := Ideal) (arg0 m c) (arg1 m c) (arg2 m c) := by
  show StableHlo.after hostOps1 (W5 m ρ c) (Proc.devRef .tc main_v45) = _
  have h31 := W5_v31 m ρ c
  have h3 := W5_v3 m ρ c
  have h6 := W5_v6 m ρ c
  have h29 := W5_v29 m ρ c
  generalize W5 m ρ c = X at h31 h3 h6 h29 ⊢
  after_results_simp
  rw [h31, h3, h6, h29, Cert.Rows.rows_outer_pad]
  rfl

theorem W6_c10 : W6 m ρ c (Proc.devRef .tc main_c_10) = constantI S_ 32 0#32 := by
  show StableHlo.after hostOps1 (W5 m ρ c) (Proc.devRef .tc main_c_10) = _
  generalize W5 m ρ c = X
  after_results

/-- The second call's input array: the first aggregation with 2400 rows appended. -/
theorem W7_v46 : W7 m ρ c (Proc.devRef .tc main_v46)
    = pad S102400x64 ![0, 0] ![2400, 0] ![0, 0] (val_main_v43 (F := Ideal) (arg0 m c) (arg1 m c) (arg2 m c)) fill
        Facts₀.pads_S100000x64_S102400x64_024000_000 Facts₀.h_S_ := by
  show StableHlo.after hostOps1_1 (W6 m ρ c) (Proc.devRef .tc main_v46) = _
  have h45 := W6_v45 m ρ c
  have hc := W6_c10 m ρ c
  generalize W6 m ρ c = X at h45 hc ⊢
  after_results
  try simp only [StableHlo.TRef.ofBuf, StableHlo.TRef.toBuf, cast_eq]
  rw [h45, hc]

/-- A buffer the stretches between the first call and the second do not write. -/
theorem keep_5_8 (r : Ref sig .tc) (h : r ∉ wr1 ++ wr1_1 ++ wr1_2) :
    W8 m ρ c (Proc.devRef .tc r) = W5 m ρ c (Proc.devRef .tc r) := by
  simp only [List.mem_append, not_or] at h
  obtain ⟨⟨h1, h2⟩, h3⟩ := h
  exact (StableHlo.after_of_writes_sub hostOps1_2 _ writes1_2 h3).trans
    ((StableHlo.after_of_writes_sub hostOps1_1 _ writes1_1 h2).trans
      (StableHlo.after_of_writes_sub hostOps1 _ writes1 h1))

theorem W8_v46 : W8 m ρ c (Proc.devRef .tc main_v46)
    = pad S102400x64 ![0, 0] ![2400, 0] ![0, 0] (val_main_v43 (F := Ideal) (arg0 m c) (arg1 m c) (arg2 m c)) fill
        Facts₀.pads_S100000x64_S102400x64_024000_000 Facts₀.h_S_ :=
  (StableHlo.after_of_writes_sub hostOps1_2 _ writes1_2 (by decide)).trans (W7_v46 m ρ c)

/-- The first bias as a one-row array. -/
theorem W8_v47 : W8 m ρ c (Proc.devRef .tc main_v47) = shapeCast S1x64 (arg3 m c) Facts₀.shapeCasts_S64_S1x64 := by
  show StableHlo.after hostOps1_2 (W7 m ρ c) (Proc.devRef .tc main_v47) = _
  have h3 : W7 m ρ c (Proc.devRef .tc main_arg3) = arg3 m c :=
    (StableHlo.after_of_writes_sub hostOps1_1 _ writes1_1 (by decide)).trans
      ((StableHlo.after_of_writes_sub hostOps1 _ writes1 (by decide)).trans
        (W5_arg m ρ c main_arg3 (by decide) (by decide)))
  generalize W7 m ρ c = X at h3 ⊢
  after_results
  rw [h3]
  rfl

/-! ## The second call and the second aggregation -/

/-- After the second call its output array is the second dense map of the padded first aggregation. -/
theorem W9_v48 : W9 m ρ c (Proc.devRef .tc main_v48)
    = Cert.Dense.reluDense (R := 102400) (C := 64)
        (pad S102400x64 ![0, 0] ![2400, 0] ![0, 0] (val_main_v43 (F := Ideal) (arg0 m c) (arg1 m c) (arg2 m c)) fill
          Facts₀.pads_S100000x64_S102400x64_024000_000 Facts₀.h_S_)
        (shapeCast S1x64 (arg3 m c) Facts₀.shapeCasts_S64_S1x64) (arg4 m c) := by
  have h := (W9_arr m ρ c 3).trans (Cert.KernelIdeal.Tiles.final1 (V8 m ρ) c)
  rw [show V8 m ρ c main_v46 = _ from W8_v46 m ρ c, show V8 m ρ c main_v47 = _ from W8_v47 m ρ c,
    show V8 m ρ c main_arg4 = _ from (keep_5_8 m ρ c main_arg4 (by decide)).trans (W5_arg m ρ c main_arg4 (by decide) (by decide))] at h
  exact h

theorem W9_v3 : W9 m ρ c (Proc.devRef .tc main_v3) = val_main_v3 (F := Ideal) (arg1 m c) :=
  (W9_of_ne m ρ c main_v3 (by decide)).trans ((keep_5_8 m ρ c main_v3 (by decide)).trans (W5_v3 m ρ c))
theorem W9_v6 : W9 m ρ c (Proc.devRef .tc main_v6) = val_main_v6 (F := Ideal) (arg1 m c) :=
  (W9_of_ne m ρ c main_v6 (by decide)).trans ((keep_5_8 m ρ c main_v6 (by decide)).trans (W5_v6 m ρ c))
theorem W9_v29 : W9 m ρ c (Proc.devRef .tc main_v29) = val_main_v29 (F := Ideal) (arg1 m c) :=
  (W9_of_ne m ρ c main_v29 (by decide)).trans ((keep_5_8 m ρ c main_v29 (by decide)).trans (W5_v29 m ρ c))
/-- An argument neither call has written holds at the second call's exit what it held at launch. -/
theorem W9_arg (r : Ref sig .tc) (h : r ∉ wr0 ++ wr0_1 ++ wr0_2 ++ wr0_3) (hw : ∀ w, Pipeline.arrRef spec0 w ≠ r)
    (h' : r ∉ wr1 ++ wr1_1 ++ wr1_2) (hw' : ∀ w, Pipeline.arrRef spec1 w ≠ r) :
    W9 m ρ c (Proc.devRef .tc r) = m ((c.tc : Thread nD τ).loc r) :=
  (W9_of_ne m ρ c r hw').trans ((keep_5_8 m ρ c r h').trans (W5_arg m ρ c r h hw))

/-- The second aggregation: the kept rows of the second call's result are the reference's second product, and the take,
    the scaling and the accumulation are again the reference's operations on equal operands. -/
theorem W10_v62 : W10 m ρ c (Proc.devRef .tc main_v62)
    = val_main_v61 (F := Ideal) (arg0 m c) (arg1 m c) (arg2 m c) (arg3 m c) (arg4 m c) := by
  show StableHlo.after hostOps2 (W9 m ρ c) (Proc.devRef .tc main_v62) = _
  have h48 := W9_v48 m ρ c
  have h3 := W9_v3 m ρ c
  have h6 := W9_v6 m ρ c
  have h29 := W9_v29 m ρ c
  generalize W9 m ρ c = X at h48 h3 h6 h29 ⊢
  after_results_simp
  rw [h48, h3, h6, h29, Cert.Rows.rows_reluDense_pad _ _ _ _ _ _ _ _ Cert.ReferenceIdeal.Facts₀.bcast_S64_S1x64_1
    Cert.ReferenceIdeal.Facts₀.bcast_S1x64_S100000x64_0_1 Cert.ReferenceIdeal.Facts₀.bcast_S_S100000x64]
  rfl

theorem W10_c14 : W10 m ρ c (Proc.devRef .tc main_c_14) = constantI S_ 32 0#32 := by
  show StableHlo.after hostOps2 (W9 m ρ c) (Proc.devRef .tc main_c_14) = _
  generalize W9 m ρ c = X
  after_results

/-- The third call's input array: the second aggregation with 2400 rows appended. -/
theorem W11_v63 : W11 m ρ c (Proc.devRef .tc main_v63)
    = pad S102400x64 ![0, 0] ![2400, 0] ![0, 0]
        (val_main_v61 (F := Ideal) (arg0 m c) (arg1 m c) (arg2 m c) (arg3 m c) (arg4 m c)) fill
        Facts₀.pads_S100000x64_S102400x64_024000_000 Facts₀.h_S_ := by
  show StableHlo.after hostOps2_1 (W10 m ρ c) (Proc.devRef .tc main_v63) = _
  have h62 := W10_v62 m ρ c
  have hc := W10_c14 m ρ c
  generalize W10 m ρ c = X at h62 hc ⊢
  after_results
  try simp only [StableHlo.TRef.ofBuf, StableHlo.TRef.toBuf, cast_eq]
  rw [h62, hc]

/-- A buffer the stretches between the second call and the third do not write. -/
theorem keep_9_12 (r : Ref sig .tc) (h : r ∉ wr2 ++ wr2_1 ++ wr2_2) :
    W12 m ρ c (Proc.devRef .tc r) = W9 m ρ c (Proc.devRef .tc r) := by
  simp only [List.mem_append, not_or] at h
  obtain ⟨⟨h1, h2⟩, h3⟩ := h
  exact (StableHlo.after_of_writes_sub hostOps2_2 _ writes2_2 h3).trans
    ((StableHlo.after_of_writes_sub hostOps2_1 _ writes2_1 h2).trans
      (StableHlo.after_of_writes_sub hostOps2 _ writes2 h1))

/-- The second bias as a one-row array, and the last bias as a one-entry array. -/
theorem W12_v64 : W12 m ρ c (Proc.devRef .tc main_v64) = shapeCast S1x64 (arg5 m c) Facts₀.shapeCasts_S64_S1x64 := by
  show StableHlo.after hostOps2_2 (W11 m ρ c) (Proc.devRef .tc main_v64) = _
  have h5 : W11 m ρ c (Proc.devRef .tc main_arg5) = arg5 m c :=
    (StableHlo.after_of_writes_sub hostOps2_1 _ writes2_1 (by decide)).trans
      ((StableHlo.after_of_writes_sub hostOps2 _ writes2 (by decide)).trans
        (W9_arg m ρ c main_arg5 (by decide) (by decide) (by decide) (by decide)))
  generalize W11 m ρ c = X at h5 ⊢
  after_results
  rw [h5]
  rfl
theorem W12_v65 : W12 m ρ c (Proc.devRef .tc main_v65) = shapeCast S1x1 (arg7 m c) Facts₀.shapeCasts_S1_S1x1 := by
  show StableHlo.after hostOps2_2 (W11 m ρ c) (Proc.devRef .tc main_v65) = _
  have h7 : W11 m ρ c (Proc.devRef .tc main_arg7) = arg7 m c :=
    (StableHlo.after_of_writes_sub hostOps2_1 _ writes2_1 (by decide)).trans
      ((StableHlo.after_of_writes_sub hostOps2 _ writes2 (by decide)).trans
        (W9_arg m ρ c main_arg7 (by decide) (by decide) (by decide) (by decide)))
  generalize W11 m ρ c = X at h7 ⊢
  after_results
  rw [h7]
  rfl

/-! ## The third call and the result -/

/-- After the third call its output column is the third dense map of the padded second aggregation. -/
theorem W13_v66 : W13 m ρ c (Proc.devRef .tc main_v66)
    = Cert.Dense.reluDenseBias (R := 102400)
        (pad S102400x64 ![0, 0] ![2400, 0] ![0, 0]
          (val_main_v61 (F := Ideal) (arg0 m c) (arg1 m c) (arg2 m c) (arg3 m c) (arg4 m c)) fill
          Facts₀.pads_S100000x64_S102400x64_024000_000 Facts₀.h_S_)
        (shapeCast S1x64 (arg5 m c) Facts₀.shapeCasts_S64_S1x64) (arg6 m c)
        (shapeCast S1x1 (arg7 m c) Facts₀.shapeCasts_S1_S1x1) := by
  have h := (W13_arr m ρ c 4).trans (Cert.KernelIdeal.Tiles.final2 (V12 m ρ) c)
  rw [show V12 m ρ c main_v63 = _ from (StableHlo.after_of_writes_sub hostOps2_2 _ writes2_2 (by decide)).trans (W11_v63 m ρ c),
    show V12 m ρ c main_v64 = _ from W12_v64 m ρ c, show V12 m ρ c main_v65 = _ from W12_v65 m ρ c,
    show V12 m ρ c main_arg6 = _ from (keep_9_12 m ρ c main_arg6 (by decide)).trans
      (W9_arg m ρ c main_arg6 (by decide) (by decide) (by decide) (by decide))] at h
  exact h

/-- THE RESULT: the kept rows of the third call's column, read as a vector, are the reference's result as a function of
    the arguments. -/
theorem W14_v68 : W14 m ρ c (Proc.devRef .tc main_v68)
    = val_main_v70 (F := Ideal) (arg0 m c) (arg1 m c) (arg2 m c) (arg3 m c) (arg4 m c) (arg5 m c) (arg6 m c) (arg7 m c) := by
  show StableHlo.after hostOps3 (W13 m ρ c) (Proc.devRef .tc main_v68) = _
  have h66 := W13_v66 m ρ c
  generalize W13 m ρ c = X at h66 ⊢
  after_results
  rw [h66, Cert.Rows.rows_reluDenseBias_pad _ _ _ _ _ _ _ _ _ _ Cert.ReferenceIdeal.Facts₀.bcast_S64_S1x64_1
    Cert.ReferenceIdeal.Facts₀.bcast_S1x64_S100000x64_0_1 Cert.ReferenceIdeal.Facts₀.bcast_S_S100000x64
    Cert.ReferenceIdeal.Facts₀.bcast_S1_S1x1_1 Cert.ReferenceIdeal.Facts₀.bcast_S1x1_S100000x1_0_1]
  rfl

end Cert.KernelIdeal.Fold

end
-- ==== Proof.lean ====
/-
  A two-layer graph convolution network with a linear head, computed with three tiled dense calls, against the same
  network computed with three whole matrix products.

  Both programs build, on the host and by the same operations, the edge list with self loops (sources, targets), the
  degree normalisation of every edge, and after each dense map the same take of rows by source, scaling and accumulation
  by target. They differ only in the three dense maps: the first program pads the rows of the map's input from 100000 to
  102400 with zeros, computes the map tile by tile (25 tiles of 4096 rows) and keeps the first 100000 rows; the second
  computes x w1, relu (a1 + b1) w2 and relu (a2 + b2) wfc + bfc as whole products. Over the extended reals a change of
  float format is the identity, a tile's product into a zero accumulator is the sum the whole product computes, and an entry
  of each dense map reads one row of its input, so the kept rows do not see the appended ones: the three maps agree entry
  by entry, with no law that would need finite inputs, and equal operands under the same host operations give equal
  results.

  The frames of the two tiled programs are the generated ones; the reference's frame is its generated run with the
  result dropped; the idealisation rewrote nothing, so its claim is trivial.
-/
import proofs.«149976_j14748917694868_1_alg».proof.Defs
import proofs.«149976_j14748917694868_1_alg».proof.Proof.Gen.Kernel
import proofs.«149976_j14748917694868_1_alg».proof.Proof.Gen.Kernel.Frame
import proofs.«149976_j14748917694868_1_alg».proof.Proof.Gen.KernelIdeal
import proofs.«149976_j14748917694868_1_alg».proof.Proof.Gen.KernelIdeal.Frame
import proofs.«149976_j14748917694868_1_alg».proof.Proof.Gen.ReferenceIdeal
import proofs.«149976_j14748917694868_1_alg».proof.Proof.Gen.Pre_finite_inputs
import proofs.«149976_j14748917694868_1_alg».proof.Proof.RefRun
import proofs.«149976_j14748917694868_1_alg».proof.Proof.RefRead
import proofs.«149976_j14748917694868_1_alg».proof.Proof.ValueRun
import proofs.«149976_j14748917694868_1_alg».proof.Proof.Fold
import Idealize.ShloMosaic.Adequacy
import Idealize.ShloMosaic.Init

noncomputable section

namespace Cert.Proof

open Idealize.ShloMosaic Idealize.SL.Sem

/-- The reference runs and keeps its arguments: its run with the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From memories agreeing on the arguments both programs end with the reference's result as a function of the
    arguments: the tiled program's result buffer read back through its stretches and calls, the reference's by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v70 (F := Ideal) (Cert.KernelIdeal.Fold.arg0 m c)
    (Cert.KernelIdeal.Fold.arg1 m c) (Cert.KernelIdeal.Fold.arg2 m c) (Cert.KernelIdeal.Fold.arg3 m c)
    (Cert.KernelIdeal.Fold.arg4 m c) (Cert.KernelIdeal.Fold.arg5 m c) (Cert.KernelIdeal.Fold.arg6 m c)
    (Cert.KernelIdeal.Fold.arg7 m c), ?_, ?_⟩
  · exact (θ_run Cert.KernelIdeal.defs _ _).mono
      (fun r h c => ⟨(h c).1.trans (Cert.KernelIdeal.Fold.W14_v68 m ρ c), (h c).2⟩)
      (Cert.KernelIdeal.ValueRun.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v70_eq]
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
